-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S65536 : Shape := ⟨1, ![65536]⟩
abbrev S128x512x1024 : Shape := ⟨3, ![128, 512, 1024]⟩
abbrev S128x512 : Shape := ⟨2, ![128, 512]⟩
abbrev S128x1024x512 : Shape := ⟨3, ![128, 1024, 512]⟩
abbrev S128x1024 : Shape := ⟨2, ![128, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S128x512x1024 : S_.BroadcastsInDim S128x512x1024 (![] : Fin 0 → Fin S128x512x1024.rank)
  reducesTo_S128x512x1024_S_d0_1_2 : S128x512x1024.ReducesTo [0, 1, 2] S_
  bcast_S_S128x512 : S_.BroadcastsInDim S128x512 (![] : Fin 0 → Fin S128x512.rank)
  reducesTo_S128x512_S_d0_1 : S128x512.ReducesTo [0, 1] S_
  bcast_S_S128x1024x512 : S_.BroadcastsInDim S128x1024x512 (![] : Fin 0 → Fin S128x1024x512.rank)
  reducesTo_S128x1024x512_S_d0_1_2 : S128x1024x512.ReducesTo [0, 1, 2] S_
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_arg5 : FVec F S128x1024 .f32) (main_arg6 : FVec F S128x512x1024 .f32) (main_arg7 : FVec F S128x512 .f32) (main_v13 : IVec S_ 1) (main_v16 : IVec S128x1024x512 1) : IVec S_ 1 :=
  let main_c_5 : IVec S_ 1 := constantI S_ 1 1#1
  let main_v17 : IVec S_ 1 := (fun x v => Host.reduce IntOp.andi x v reducesTo_S128x1024x512_S_d0_1_2 h_S_) main_v16 main_c_5
  let main_v18 : IVec S_ 1 := andi main_v13 main_v17
  let main_v19 : FVec F S128x1024 .f32 := Host.absf main_arg5
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  let main_v24 : FVec F S128x512x1024 .f32 := Host.absf main_arg6
  let main_cst_8 : FVec F S_ .f32 := constant S_ .f32 0x7F800000#32
  let main_v25 : FVec F S128x512x1024 .f32 := broadcastInDim S128x512x1024 ![] bcast_S_S128x512x1024 main_cst_8
  let main_v26 : IVec S128x512x1024 1 := cmpf .olt main_v24 main_v25
  let main_c_9 : IVec S_ 1 := constantI S_ 1 1#1
  let main_v27 : IVec S_ 1 := (fun x v => Host.reduce IntOp.andi x v reducesTo_S128x512x1024_S_d0_1_2 h_S_) main_v26 main_c_9
  let main_v28 : IVec S_ 1 := andi main_v23 main_v27
  let main_v29 : FVec F S128x512 .f32 := Host.absf main_arg7
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  main_v33

def fn {F : FTy → Type} [FloatOps F] (main_arg0 : FVec F S16x4096x1024 .f32) (main_arg1 : IVec S65536 32) (main_arg2 : FVec F S128x512x1024 .f32) (main_arg3 : FVec F S128x512 .f32) (main_arg4 : FVec F S128x1024x512 .f32) (main_arg5 : FVec F S128x1024 .f32) (main_arg6 : FVec F S128x512x1024 .f32) (main_arg7 : FVec F S128x512 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S128x512x1024 .f32 := Host.absf main_arg2
  let main_cst_0 : FVec F S_ .f32 := constant S_ .f32 0x7F800000#32
  let main_v5 : FVec F S128x512x1024 .f32 := broadcastInDim S128x512x1024 ![] bcast_S_S128x512x1024 main_cst_0
  let main_v6 : IVec S128x512x1024 1 := cmpf .olt main_v4 main_v5
  let main_c_1 : IVec S_ 1 := constantI S_ 1 1#1
  let main_v7 : IVec S_ 1 := (fun x v => Host.reduce IntOp.andi x v reducesTo_S128x512x1024_S_d0_1_2 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x1024x512 .f32 := Host.absf main_arg4
  let main_cst_4 : FVec F S_ .f32 := constant S_ .f32 0x7F800000#32
  let main_v15 : FVec F S128x1024x512 .f32 := broadcastInDim S128x1024x512 ![] bcast_S_S128x1024x512 main_cst_4
  let main_v16 : IVec S128x1024x512 1 := cmpf .olt main_v14 main_v15
  fn_part1 (F := F) main_arg5 main_arg6 main_arg7 main_v13 main_v16
-- ==== Kernel.lean ====
abbrev S16x4096x1024 : Shape := ⟨3, ![16, 4096, 1024]⟩
abbrev S65536 : Shape := ⟨1, ![65536]⟩
abbrev S128x512x1024 : Shape := ⟨3, ![128, 512, 1024]⟩
abbrev S128x512 : Shape := ⟨2, ![128, 512]⟩
abbrev S128x1024x512 : Shape := ⟨3, ![128, 1024, 512]⟩
abbrev S128x1024 : Shape := ⟨2, ![128, 1024]⟩
abbrev S65536x1024 : Shape := ⟨2, ![65536, 1024]⟩
abbrev S_ : Shape := ⟨0, ![]⟩
abbrev S65536x1 : Shape := ⟨2, ![65536, 1]⟩
abbrev S128x1x512 : Shape := ⟨3, ![128, 1, 512]⟩
abbrev S128x1x1024 : Shape := ⟨3, ![128, 1, 1024]⟩
abbrev S1x512x1024 : Shape := ⟨3, ![1, 512, 1024]⟩
abbrev S1x1x512 : Shape := ⟨3, ![1, 1, 512]⟩
abbrev S1x1024x512 : Shape := ⟨3, ![1, 1024, 512]⟩
abbrev S1x1x1024 : Shape := ⟨3, ![1, 1, 1024]⟩
abbrev S512x1024 : Shape := ⟨2, ![512, 1024]⟩
abbrev S512x512 : Shape := ⟨2, ![512, 512]⟩
abbrev S1x512 : Shape := ⟨2, ![1, 512]⟩
abbrev S1024x512 : Shape := ⟨2, ![1024, 512]⟩
abbrev S1x1024 : Shape := ⟨2, ![1, 1024]⟩

abbrev nBuf : Space → Nat
  | .hbm => 37
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S65536, .i32⟩
  | .hbm, ⟨2, _⟩ => ⟨S128x512x1024, .f32⟩
  | .hbm, ⟨3, _⟩ => ⟨S128x512, .f32⟩
  | .hbm, ⟨4, _⟩ => ⟨S128x1024x512, .f32⟩
  | .hbm, ⟨5, _⟩ => ⟨S128x1024, .f32⟩
  | .hbm, ⟨6, _⟩ => ⟨S128x512x1024, .f32⟩
  | .hbm, ⟨7, _⟩ => ⟨S128x512, .f32⟩
  | .hbm, ⟨8, _⟩ => ⟨S65536x1024, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1024, .f32⟩
  | .hbm, ⟨18, _⟩ => ⟨S128x512x1024, .f32⟩
  | .hbm, ⟨19, _⟩ => ⟨S128x1x512, .f32⟩
  | .hbm, ⟨20, _⟩ => ⟨S128x1x512, .f32⟩
  | .hbm, ⟨21, _⟩ => ⟨S128x1x1024, .f32⟩
  | .hbm, ⟨22, _⟩ => ⟨S128x512x1024, .f32⟩
  | .hbm, ⟨23, _⟩ => ⟨S65536x1024, .f32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S65536x1, .i32⟩
  | .hbm, ⟨35, _⟩ => ⟨S65536x1024, .f32⟩
  | .hbm, ⟨36, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x512, .f32⟩
  | .local _ .vmem, ⟨5, _⟩ => ⟨S1x1x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1x512, .f32⟩
  | .local _ .vmem, ⟨9, _⟩ => ⟨S1x1x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1_0 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x4096x1024_S65536x1024 : S16x4096x1024.ShapeCasts S65536x1024
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x1024_S128x512x1024 : S65536x1024.ShapeCasts S128x512x1024
  shapeCasts_S128x512_S128x1x512 : S128x512.ShapeCasts S128x1x512
  shapeCasts_S128x1024_S128x1x1024 : S128x1024.ShapeCasts S128x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  shapeCasts_S128x512x1024_S65536x1024 : S128x512x1024.ShapeCasts S65536x1024
  shapeCasts_S65536x1024_S16x4096x1024 : S65536x1024.ShapeCasts S16x4096x1024
  gather_S65536x1024_S65536x1_S65536x1024_1_0_n_n_0_1_11024_wf : GatherDims.WF S65536x1024 S65536x1 S65536x1024 [1] [0] [] [0] [] 1 ![1, 1024]
  dot_S512x1024_S512x1024_S512x512_1_1_0_0_n_n_wf : DotDims.WF S512x1024 S512x1024 S512x512 [1] [1] [0] [0] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S128x512x1024.size a
  hwx0_0 : ∀ i : grid0.Coords, EltTy.bits .f32 = 32 ∨ (Rect.block (s := S128x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S128x512x1024.size a
  hwx0_1 : ∀ i : grid0.Coords, EltTy.bits .f32 = 32 ∨ (Rect.block (s := S128x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S128x1x512.size a
  hwx0_2 : ∀ i : grid0.Coords, EltTy.bits .f32 = 32 ∨ (Rect.block (s := S128x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S128x512x1024.size a
  hwx0_3 : ∀ i : grid0.Coords, EltTy.bits .f32 = 32 ∨ (Rect.block (s := S128x512x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S128x1x512.size a
  hwx0_4 : ∀ i : grid0.Coords, EltTy.bits .f32 = 32 ∨ (Rect.block (s := S128x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S128x1024x512.size a
  hwx0_5 : ∀ i : grid0.Coords, EltTy.bits .f32 = 32 ∨ (Rect.block (s := S128x1024x512) S1x1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S128x1x1024.size a
  hwx0_6 : ∀ i : grid0.Coords, EltTy.bits .f32 = 32 ∨ (Rect.block (s := S128x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S128x512x1024.size a
  hwx0_7 : ∀ i : grid0.Coords, EltTy.bits .f32 = 32 ∨ (Rect.block (s := S128x512x1024) S1x512x1024.size (cc0_transform_7 i) (hinb0_7 i)).WholeWords (EltTy.packing .f32)

variable [Facts₀]

def gather_S65536x1024_S65536x1_S65536x1024_1_0_n_n_0_1_11024 : GatherDims S65536x1024 S65536x1 S65536x1024 where
  offsetDims := [1]
  collapsedSliceDims := [0]
  operandBatchingDims := []
  startIndicesBatchingDims := []
  startIndexMap := [0]
  indexVectorDim := 1
  sliceSizes := ![1, 1024]
  wf := gather_S65536x1024_S65536x1_S65536x1024_1_0_n_n_0_1_11024_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def comparator_i32_i32_d0 : BitVec 32 × BitVec 32 → BitVec 32 × BitVec 32 → BitVec 1 :=
  fun l r =>
    let v2 := IntOp.cmpi .slt l.1 r.1
    v2

abbrev win0_0 : Pipeline.Window sig grid0 :=
  Pipeline.Window.ofSpec (Memref.whole main_v8) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S65536 : Shape := ⟨1, ![65536]⟩
abbrev S128x512x1024 : Shape := ⟨3, ![128, 512, 1024]⟩
abbrev S128x512 : Shape := ⟨2, ![128, 512]⟩
abbrev S128x1024x512 : Shape := ⟨3, ![128, 1024, 512]⟩
abbrev S128x1024 : Shape := ⟨2, ![128, 1024]⟩
abbrev S65536x1024 : Shape := ⟨2, ![65536, 1024]⟩
abbrev S_ : Shape := ⟨0, ![]⟩
abbrev S65536x1 : Shape := ⟨2, ![65536, 1]⟩
abbrev S128x512x512 : Shape := ⟨3, ![128, 512, 512]⟩
abbrev S128x1x512 : Shape := ⟨3, ![128, 1, 512]⟩
abbrev S128x1x1024 : Shape := ⟨3, ![128, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536, .i32⟩
  | .hbm, ⟨2, _⟩ => ⟨S128x512x1024, .f32⟩
  | .hbm, ⟨3, _⟩ => ⟨S128x512, .f32⟩
  | .hbm, ⟨4, _⟩ => ⟨S128x1024x512, .f32⟩
  | .hbm, ⟨5, _⟩ => ⟨S128x1024, .f32⟩
  | .hbm, ⟨6, _⟩ => ⟨S128x512x1024, .f32⟩
  | .hbm, ⟨7, _⟩ => ⟨S128x512, .f32⟩
  | .hbm, ⟨8, _⟩ => ⟨S65536x1024, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1024, .f32⟩
  | .hbm, ⟨18, _⟩ => ⟨S128x512x1024, .f32⟩
  | .hbm, ⟨19, _⟩ => ⟨S128x512x512, .f32⟩
  | .hbm, ⟨20, _⟩ => ⟨S128x1x512, .f32⟩
  | .hbm, ⟨21, _⟩ => ⟨S128x512x512, .f32⟩
  | .hbm, ⟨22, _⟩ => ⟨S128x512x512, .f32⟩
  | .hbm, ⟨23, _⟩ => ⟨S128x512x512, .f32⟩
  | .hbm, ⟨24, _⟩ => ⟨S128x1x512, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S128x512x512, .f32⟩
  | .hbm, ⟨29, _⟩ => ⟨S_, .f32⟩
  | .hbm, ⟨30, _⟩ => ⟨S128x512x512, .f32⟩
  | .hbm, ⟨31, _⟩ => ⟨S128x512x512, .f32⟩
  | .hbm, ⟨32, _⟩ => ⟨S_, .f32⟩
  | .hbm, ⟨33, _⟩ => ⟨S128x512x512, .f32⟩
  | .hbm, ⟨34, _⟩ => ⟨S128x512x512, .f32⟩
  | .hbm, ⟨35, _⟩ => ⟨S128x512x512, .f32⟩
  | .hbm, ⟨36, _⟩ => ⟨S128x512x512, .f32⟩
  | .hbm, ⟨37, _⟩ => ⟨S128x512x1024, .f32⟩
  | .hbm, ⟨38, _⟩ => ⟨S128x1x1024, .f32⟩
  | .hbm, ⟨39, _⟩ => ⟨S128x512x1024, .f32⟩
  | .hbm, ⟨40, _⟩ => ⟨S128x512x1024, .f32⟩
  | .hbm, ⟨41, _⟩ => ⟨S65536x1024, .f32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536x1024, .f32⟩
  | .hbm, ⟨54, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_call1_v1_0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  shapeCasts_S16x4096x1024_S65536x1024 : S16x4096x1024.ShapeCasts S65536x1024
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x1024_S128x512x1024 : S65536x1024.ShapeCasts S128x512x1024
  bcast_S128x512_S128x1x512_0_2 : S128x512.BroadcastsInDim S128x1x512 (![0, 2] : Fin 2 → Fin S128x1x512.rank)
  bcast_S128x1x512_S128x512x512_0_1_2 : S128x1x512.BroadcastsInDim S128x512x512 (![0, 1, 2] : Fin 3 → Fin S128x512x512.rank)
  bcast_S_S128x512x512 : S_.BroadcastsInDim S128x512x512 (![] : Fin 0 → Fin S128x512x512.rank)
  bcast_S128x1024_S128x1x1024_0_2 : S128x1024.BroadcastsInDim S128x1x1024 (![0, 2] : Fin 2 → Fin S128x1x1024.rank)
  bcast_S128x1x1024_S128x512x1024_0_1_2 : S128x1x1024.BroadcastsInDim S128x512x1024 (![0, 1, 2] : Fin 3 → Fin S128x512x1024.rank)
  shapeCasts_S128x512x1024_S65536x1024 : S128x512x1024.ShapeCasts S65536x1024
  shapeCasts_S65536x1024_S16x4096x1024 : S65536x1024.ShapeCasts S16x4096x1024
  gather_S65536x1024_S65536x1_S65536x1024_1_0_n_n_0_1_11024_wf : GatherDims.WF S65536x1024 S65536x1 S65536x1024 [1] [0] [] [0] [] 1 ![1, 1024]
  dot_S128x512x1024_S128x512x1024_S128x512x512_2_2_1_1_0_0_wf : DotDims.WF S128x512x1024 S128x512x1024 S128x512x512 [2] [2] [1] [1] [0] [0]
  dot_S128x512x512_S128x1024x512_S128x512x1024_2_2_1_1_0_0_wf : DotDims.WF S128x512x512 S128x1024x512 S128x512x1024 [2] [2] [1] [1] [0] [0]

variable [Facts₀]

def gather_S65536x1024_S65536x1_S65536x1024_1_0_n_n_0_1_11024 : GatherDims S65536x1024 S65536x1 S65536x1024 where
  offsetDims := [1]
  collapsedSliceDims := [0]
  operandBatchingDims := []
  startIndicesBatchingDims := []
  startIndexMap := [0]
  indexVectorDim := 1
  sliceSizes := ![1, 1024]
  wf := gather_S65536x1024_S65536x1_S65536x1024_1_0_n_n_0_1_11024_wf
def dot_S128x512x1024_S128x512x1024_S128x512x512_2_2_1_1_0_0 : DotDims S128x512x1024 S128x512x1024 S128x512x512 where
  lhsContracting := [2]
  rhsContracting := [2]
  lhsNonContracting := [1]
  rhsNonContracting := [1]
  lhsBatch := [0]
  rhsBatch := [0]
  wf := dot_S128x512x1024_S128x512x1024_S128x512x512_2_2_1_1_0_0_wf
def dot_S128x512x512_S128x1024x512_S128x512x1024_2_2_1_1_0_0 : DotDims S128x512x512 S128x1024x512 S128x512x1024 where
  lhsContracting := [2]
  rhsContracting := [2]
  lhsNonContracting := [1]
  rhsNonContracting := [1]
  lhsBatch := [0]
  rhsBatch := [0]
  wf := dot_S128x512x512_S128x1024x512_S128x512x1024_2_2_1_1_0_0_wf
def comparator_i32_i32_d0 : BitVec 32 × BitVec 32 → BitVec 32 × BitVec 32 → BitVec 1 :=
  fun l r =>
    let v2 := IntOp.cmpi .slt l.1 r.1
    v2

class Facts : Prop extends Facts₀ where

variable [Facts]
-- ==== Proof.BlockMatmul.lean ====
/-
  The two matrix products of the kernel body, read at an entry on the extended reals. Both contract the LAST axis of
  both operands (the weight blocks are stored [feature, channel] and [channel, feature], so each product is "rows
  against rows"): into a zero accumulator, entry (r, c) is the sum over k of the left operand at (r, k) times the
  right at (c, k). The contraction index has one axis; the sum is re-indexed to a plain Fin through it.
-/
import proofs.«126496_j73126113181995_1_alg».proof.Proof.Gen.KernelIdeal
import Idealize.ShloMosaic.Lib.ValueIdx
import Idealize.ShloMosaic.PureOps.Ideal.Laws

noncomputable section

namespace Cert.KernelIdeal.BlockMatmul

open Cert.KernelIdeal Cert.KernelIdeal.Gen Idealize.ShloMosaic Idealize.ShloMosaic.ValueIdx
open scoped BigOperators

/-! ## A [512, 1024] token block against a [512, 1024] weight block: 512 × 512 entries, 1024 channels contracted -/

/-- Left operand, row axis: the output's row. -/
theorem lhs_up_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
/-- Left operand, contracted axis: the contraction coordinate. -/
theorem lhs_up_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- Right operand, row axis: the output's column. -/
theorem rhs_up_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
/-- Right operand, contracted axis: the contraction coordinate. -/
theorem rhs_up_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- An up-projection's product at (token, feature): the token's 1024 channels against the feature's 1024 weights. -/
theorem matmul_up_at {φ₁ φ₂ : FTy} (a : FVec Ideal S512x1024 φ₁) (b : FVec Ideal S512x1024 φ₂) (r c : Fin 512) :
    matmul dot_S512x1024_S512x1024_S512x512_1_1_0_0_n_n none a b (constant S512x512 .f32 0x00000000#32) (ix2 r c)
      = ∑ k : Fin 1024, a (ix2 r k) * b (ix2 c k) := by
  show FloatOps.matmul dot_S512x1024_S512x1024_S512x512_1_1_0_0_n_n none a b (constant S512x512 .f32 0x00000000#32) (ix2 r c) = _
  rw [Ideal.matmul_constant_zero_apply,
    ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r c)
      ((contrEquiv1 dot_S512x1024_S512x1024_S512x512_1_1_0_0_n_n 1024 rfl rfl).symm k) = ix2 r k :=
    funext fun x => Fin.ext (by
      match x with
      | ⟨0, _⟩ => exact lhs_up_0 _ _
      | ⟨1, _⟩ => exact (lhs_up_1 _ _).trans hk)
  have er : dot_S512x1024_S512x1024_S512x512_1_1_0_0_n_n.rhsIdx (ix2 r c)
      ((contrEquiv1 dot_S512x1024_S512x1024_S512x512_1_1_0_0_n_n 1024 rfl rfl).symm k) = ix2 c k :=
    funext fun x => Fin.ext (by
      match x with
      | ⟨0, _⟩ => exact rhs_up_0 _ _
      | ⟨1, _⟩ => exact (rhs_up_1 _ _).trans hk)
  rw [el, er]

/-! ## A [512, 512] hidden block against a [1024, 512] weight block: 512 × 1024 entries, 512 features contracted -/

/-- Left operand, row axis: the output's row. -/
theorem lhs_down_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl
/-- Left operand, contracted axis: the contraction coordinate. -/
theorem lhs_down_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
/-- Right operand, row axis: the output's column. -/
theorem rhs_down_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl
/-- Right operand, contracted axis: the contraction coordinate. -/
theorem rhs_down_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The down-projection's product at (token, channel): the token's 512 hidden features against the channel's 512 weights. -/
theorem matmul_down_at {φ₁ φ₂ : FTy} (a : FVec Ideal S512x512 φ₁) (b : FVec Ideal S1024x512 φ₂) (r : Fin 512) (c : Fin 1024) :
    matmul dot_S512x512_S1024x512_S512x1024_1_1_0_0_n_n none a b (constant S512x1024 .f32 0x00000000#32) (ix2 r c)
      = ∑ k : Fin 512, a (ix2 r k) * b (ix2 c k) := by
  show FloatOps.matmul dot_S512x512_S1024x512_S512x1024_1_1_0_0_n_n none a b (constant S512x1024 .f32 0x00000000#32) (ix2 r c) = _
  rw [Ideal.matmul_constant_zero_apply,
    ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 r c)
      ((contrEquiv1 dot_S512x512_S1024x512_S512x1024_1_1_0_0_n_n 512 rfl rfl).symm k) = ix2 r k :=
    funext fun x => Fin.ext (by
      match x with
      | ⟨0, _⟩ => exact lhs_down_0 _ _
      | ⟨1, _⟩ => exact (lhs_down_1 _ _).trans hk)
  have er : dot_S512x512_S1024x512_S512x1024_1_1_0_0_n_n.rhsIdx (ix2 r c)
      ((contrEquiv1 dot_S512x512_S1024x512_S512x1024_1_1_0_0_n_n 512 rfl rfl).symm k) = ix2 c k :=
    funext fun x => Fin.ext (by
      match x with
      | ⟨0, _⟩ => exact rhs_down_0 _ _
      | ⟨1, _⟩ => exact (rhs_down_1 _ _).trans hk)
  rw [el, er]

end Cert.KernelIdeal.BlockMatmul

end
-- ==== Proof.BlockFfn.lean ====
/-
  What the kernel body stores, read at one index, as a function of the seven blocks it loads.

  At a grid point the body holds one expert's blocks: tokens x [1, 512, 1024], the two up-projection weights
  w₁, w₃ [1, 512, 1024] with bias rows b₁, b₃ [1, 1, 512], the down-projection weight w₂ [1, 1024, 512] with bias row
  b₂ [1, 1, 1024]. The leading unit axis is cast away and back; the narrowing to the 16-bit format before each product
  is the identity on the extended reals; each product contracts the last axis of both operands; a bias row is
  broadcast down the 512 token rows. So the stored entry at (token t, channel c) is
      Σ_f ( p₁(t,f) · σ(p₁(t,f)) · p₃(t,f) ) · w₂[0,c,f]  +  b₂[0,0,c],
  with  pⱼ(t,f) = Σ_k x[0,t,k] · wⱼ[0,f,k] + bⱼ[0,0,f]  and σ the logistic function.
-/
import proofs.«126496_j73126113181995_1_alg».proof.Proof.Gen.KernelIdeal.Skeleton
import proofs.«126496_j73126113181995_1_alg».proof.Proof.BlockMatmul
import Idealize.ShloMosaic.Lib.Pipeline.Value

noncomputable section

namespace Cert.KernelIdeal.BlockFfn

open Cert.KernelIdeal Cert.KernelIdeal.Gen Cert.KernelIdeal.BlockMatmul Idealize.ShloMosaic Idealize.ShloMosaic.ValueIdx
open scoped BigOperators

/-! ## The unit axis cast away and back, and a row broadcast down the rows, read at an index -/

/-- A [1, 512, 1024] block with its unit axis dropped: entry (t, k) is the block's (0, t, k). -/
theorem squeeze_tok {α : Type} (v : S1x512x1024.Idx → α) (h : S1x512x1024.ShapeCasts S512x1024) (t : Fin 512) (k : Fin 1024) :
    shapeCast S512x1024 v h (ix2 t k) = v (ix3 0 t k) :=
  shapeCast_apply v h (ix2 t k) (ix3 0 t k) (by
    rewrite [Shape.rowMajor_val_three, Shape.rowMajor_val_two]
    show (0 * 512 + t.val) * 1024 + k.val = t.val * 1024 + k.val
    omega)

/-- A [1, 1024, 512] block with its unit axis dropped: entry (c, f) is the block's (0, c, f). -/
theorem squeeze_down {α : Type} (v : S1x1024x512.Idx → α) (h : S1x1024x512.ShapeCasts S1024x512) (c : Fin 1024) (f : Fin 512) :
    shapeCast S1024x512 v h (ix2 c f) = v (ix3 0 c f) :=
  shapeCast_apply v h (ix2 c f) (ix3 0 c f) (by
    rewrite [Shape.rowMajor_val_three, Shape.rowMajor_val_two]
    show (0 * 1024 + c.val) * 512 + f.val = c.val * 512 + f.val
    omega)

/-- A [1, 1, 512] bias block with one unit axis dropped: entry (0, f) is the block's (0, 0, f). -/
theorem squeeze_fbias {α : Type} (v : S1x1x512.Idx → α) (h : S1x1x512.ShapeCasts S1x512) (f : Fin 512) :
    shapeCast S1x512 v h (ix2 0 f) = v (ix3 0 0 f) :=
  shapeCast_apply v h (ix2 0 f) (ix3 0 0 f) (by
    rewrite [Shape.rowMajor_val_three, Shape.rowMajor_val_two]
    show (0 * 1 + 0) * 512 + f.val = 0 * 512 + f.val
    omega)

/-- A [1, 1, 1024] bias block with one unit axis dropped: entry (0, c) is the block's (0, 0, c). -/
theorem squeeze_cbias {α : Type} (v : S1x1x1024.Idx → α) (h : S1x1x1024.ShapeCasts S1x1024) (c : Fin 1024) :
    shapeCast S1x1024 v h (ix2 0 c) = v (ix3 0 0 c) :=
  shapeCast_apply v h (ix2 0 c) (ix3 0 0 c) (by
    rewrite [Shape.rowMajor_val_three, Shape.rowMajor_val_two]
    show (0 * 1 + 0) * 1024 + c.val = 0 * 1024 + c.val
    omega)

/-- A [512, 1024] result given back its unit axis: the block's (z, t, c) is the result's (t, c). -/
theorem unsqueeze_out {α : Type} (v : S512x1024.Idx → α) (h : S512x1024.ShapeCasts S1x512x1024) (z : Fin 1) (t : Fin 512) (c : Fin 1024) :
    shapeCast S1x512x1024 v h (ix3 z t c) = v (ix2 t c) :=
  shapeCast_apply v h (ix3 z t c) (ix2 t c) (by
    rewrite [Shape.rowMajor_val_three, Shape.rowMajor_val_two]
    have hz : z.val < 1 := z.isLt
    show t.val * 1024 + c.val = (z.val * 512 + t.val) * 1024 + c.val
    omega)

/-- A [1, 512] row broadcast to [512, 512]: every row is the row. -/
theorem bias_row_f {α : Type} (v : S1x512.Idx → α) (h : S1x512.Broadcasts S512x512) (t f : Fin 512) :
    broadcastTo S512x512 v h (ix2 t f) = v (ix2 0 f) :=
  broadcastTo_apply v h (ix2 t f) (ix2 0 f) (fun a => match a with
    | ⟨0, _⟩ => by show (0 : ℕ) = if (1 : ℕ) = 1 then 0 else _; rw [if_pos rfl]
    | ⟨1, _⟩ => by show f.val = if (512 : ℕ) = 1 then 0 else f.val; rw [if_neg (by decide)])

/-- A [1, 1024] row broadcast to [512, 1024]: every row is the row. -/
theorem bias_row_c {α : Type} (v : S1x1024.Idx → α) (h : S1x1024.Broadcasts S512x1024) (t : Fin 512) (c : Fin 1024) :
    broadcastTo S512x1024 v h (ix2 t c) = v (ix2 0 c) :=
  broadcastTo_apply v h (ix2 t c) (ix2 0 c) (fun a => match a with
    | ⟨0, _⟩ => by show (0 : ℕ) = if (1 : ℕ) = 1 then 0 else _; rw [if_pos rfl]
    | ⟨1, _⟩ => by show c.val = if (1024 : ℕ) = 1 then 0 else c.val; rw [if_neg (by decide)])

/-- The logistic function is applied entry by entry. -/
theorem logistic_at {s : Shape} {φ : FTy} (a : FVec Ideal s φ) (i : s.Idx) : logistic a i = Ideal.logistic (a i) := rfl

/-! ## One expert's blocks -/

/-- An up-projection entry of one expert's blocks: token row t against weight row f, plus the bias row's entry f. -/
def blockProj (x w : FVec Ideal S1x512x1024 .f32) (b : FVec Ideal S1x1x512 .f32) (t f : Fin 512) : EReal :=
  (∑ k : Fin 1024, x (ix3 0 t k) * w (ix3 0 f k)) + b (ix3 0 0 f)

/-- What the body stores at (t, c), from the seven loaded blocks. -/
def blockOut (x w1 : FVec Ideal S1x512x1024 .f32) (b1 : FVec Ideal S1x1x512 .f32) (w3 : FVec Ideal S1x512x1024 .f32)
    (b3 : FVec Ideal S1x1x512 .f32) (w2 : FVec Ideal S1x1024x512 .f32) (b2 : FVec Ideal S1x1x1024 .f32)
    (t : Fin 512) (c : Fin 1024) : EReal :=
  (∑ f : Fin 512, (blockProj x w1 b1 t f * Ideal.logistic (blockProj x w1 b1 t f) * blockProj x w3 b3 t f) * w2 (ix3 0 c f))
    + b2 (ix3 0 0 c)

/-- The body's up-projection — both blocks cast to [512, 1024] and narrowed, their product into zeros, the bias row
    broadcast and added — at (t, f). -/
theorem up_at (x w : FVec Ideal S1x512x1024 .f32) (b : FVec Ideal S1x1x512 .f32)
    (h1 : S1x512x1024.ShapeCasts S512x1024) (h2 : S1x1x512.ShapeCasts S1x512) (h3 : S1x512.Broadcasts S512x512)
    (h4 : FTy.bf16.bits < FTy.f32.bits) (t f : Fin 512) :
    addf (matmul dot_S512x1024_S512x1024_S512x512_1_1_0_0_n_n none (truncf .bf16 (shapeCast S512x1024 x h1) h4)
        (truncf .bf16 (shapeCast S512x1024 w h1) h4) (constant S512x512 .f32 0x00000000#32))
      (broadcastTo S512x512 (shapeCast S1x512 b h2) h3) (ix2 t f) = blockProj x w b t f := by
  unfold blockProj
  rw [addf_apply, matmul_up_at, bias_row_f, squeeze_fbias]
  refine congrArg (· + b (ix3 0 0 f)) (Finset.sum_congr rfl fun k _ => ?_)
  rw [truncf_apply, truncf_apply, squeeze_tok, squeeze_tok]

/-- THE PAYLOAD AT AN INDEX: the stored block's entry (z, t, c) is blockOut of the loaded blocks at (t, c). -/
theorem payload_at (x0 x1 x3 : FVec Ideal S1x512x1024 .f32) (x2 x4 : FVec Ideal S1x1x512 .f32) (x5 : FVec Ideal S1x1024x512 .f32)
    (x6 : FVec Ideal S1x1x1024 .f32) (z : Fin 1) (t : Fin 512) (c : Fin 1024) :
    k0_pay1 (F := Ideal) (k0_pay2 (F := Ideal) x0 x1 x3 x2 x4 x5 x6) (ix3 z t c) = blockOut x0 x1 x2 x3 x4 x5 x6 t c := by
  unfold k0_pay1 k0_pay2 blockOut
  dsimp only
  rw [unsqueeze_out, addf_apply, matmul_down_at, bias_row_c, squeeze_cbias]
  refine congrArg (· + x6 (ix3 0 0 c)) (Finset.sum_congr rfl fun f _ => ?_)
  rw [truncf_apply, truncf_apply, squeeze_down, mulf_apply, mulf_apply, logistic_at, up_at, up_at]

end Cert.KernelIdeal.BlockFfn

end
-- ==== Proof.ExpertFfn.lean ====
/-
  The per-expert gated feed-forward network as ONE function of whole arrays, index by index, on the extended reals.

  Tokens are grouped by expert: `xs[e, t, ·]` is token `t` of expert `e` (1024 channels). Each expert owns three
  weight matrices and three bias rows. For expert `e`, token `t`:
    up-projection    `p₁[f] = Σ_k xs[e,t,k] · w₁[e,f,k] + b₁[e,f]`         (512 features)
    gate-projection  `p₃[f] = Σ_k xs[e,t,k] · w₃[e,f,k] + b₃[e,f]`
    hidden           `h[f]  = (p₁[f] · σ(p₁[f])) · p₃[f]`,  σ the logistic function `1 / (1 + e^(-x))`
    output           `y[c]  = Σ_f h[f] · w₂[e,c,f] + b₂[e,c]`               (1024 channels).
  Both programs compute exactly this tree of sums and products, in this grouping, so no law of the extended
  reals beyond re-indexing a finite sum is needed to join them.
-/
import Idealize.ShloMosaic.PureOps.Ideal
import Idealize.ShloMosaic.Lib.ValueIdx

noncomputable section

namespace Cert.ExpertFfn

open Idealize.ShloMosaic Idealize.ShloMosaic.ValueIdx
open scoped BigOperators

/-- [expert, token, channel]; also the shape of an up-projection weight [expert, feature, channel]. -/
abbrev Tok : Shape := ⟨3, ![128, 512, 1024]⟩
/-- [expert, channel, feature]: a down-projection weight. -/
abbrev Down : Shape := ⟨3, ![128, 1024, 512]⟩
/-- [expert, feature]: an up-projection bias. -/
abbrev UpBias : Shape := ⟨2, ![128, 512]⟩
/-- [expert, channel]: the down-projection bias. -/
abbrev DownBias : Shape := ⟨2, ![128, 1024]⟩

/-- One entry of an up-projection: token `t` of expert `e` against feature row `f` of that expert's weight, plus the bias. -/
def proj (xs w : FVec Ideal Tok .f32) (b : FVec Ideal UpBias .f32) (e : Fin 128) (t f : Fin 512) : EReal :=
  (∑ k : Fin 1024, xs (ix3 e t k) * w (ix3 e f k)) + b (ix2 e f)

/-- One hidden entry: the up-projection times its logistic, times the gate-projection. -/
def gatedHidden (xs w1 : FVec Ideal Tok .f32) (b1 : FVec Ideal UpBias .f32) (w3 : FVec Ideal Tok .f32) (b3 : FVec Ideal UpBias .f32)
    (e : Fin 128) (t f : Fin 512) : EReal :=
  proj xs w1 b1 e t f * Ideal.logistic (proj xs w1 b1 e t f) * proj xs w3 b3 e t f

/-- The network's output array: the hidden row against channel row `c` of the down-projection weight, plus the bias. -/
def ffn (xs w1 : FVec Ideal Tok .f32) (b1 : FVec Ideal UpBias .f32) (w3 : FVec Ideal Tok .f32) (b3 : FVec Ideal UpBias .f32)
    (w2 : FVec Ideal Down .f32) (b2 : FVec Ideal DownBias .f32) : FVec Ideal Tok .f32 := fun i =>
  (∑ f : Fin 512, gatedHidden xs w1 b1 w3 b3 (i 0) (i 1) f * w2 (ix3 (i 0) (i 2) f)) + b2 (ix2 (i 0) (i 2))

end Cert.ExpertFfn

end
-- ==== Proof.FfnArray.lean ====
/-
  From blocks to the array: the kernel's output array after its 128 grid points is the per-expert feed-forward
  function of the seven arrays the region finds.

  Every window's block at grid point e is the slab [e, ·, ·] of its array (index map e ↦ (e, 0, 0), block [1, ·, ·]),
  so a loaded block's entry (0, a, b) is the array's (e, a, b), and the stored block's entry (0, t, c) lands at the
  output's (e, t, c). The 128 slabs tile the output array, so it ends holding that function everywhere. The bias
  arrays the region finds are [128, 1, N] (the host reshaped them); they are read as [128, N] through that unit axis.
-/
import proofs.«126496_j73126113181995_1_alg».proof.Proof.Gen.KernelIdeal.Frame
import proofs.«126496_j73126113181995_1_alg».proof.Proof.BlockFfn
import proofs.«126496_j73126113181995_1_alg».proof.Proof.ExpertFfn
import Idealize.ShloMosaic.Lib.Pipeline.Value

set_option maxRecDepth 16384

noncomputable section

namespace Cert.KernelIdeal.FfnArray

open Cert.KernelIdeal Cert.KernelIdeal.Gen Cert.KernelIdeal.BlockFfn Cert.ExpertFfn
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-! ## The arrays the region finds, and the blocks a point loads, at their literal types -/

abbrev toks (c : Dev nD) : FVec Ideal S128x512x1024 .f32 := V m c main_v8
abbrev w1a (c : Dev nD) : FVec Ideal S128x512x1024 .f32 := V m c main_arg2
abbrev b1a (c : Dev nD) : FVec Ideal S128x1x512 .f32 := V m c main_v9
abbrev w3a (c : Dev nD) : FVec Ideal S128x512x1024 .f32 := V m c main_arg6
abbrev b3a (c : Dev nD) : FVec Ideal S128x1x512 .f32 := V m c main_v10
abbrev w2a (c : Dev nD) : FVec Ideal S128x1024x512 .f32 := V m c main_arg4
abbrev b2a (c : Dev nD) : FVec Ideal S128x1x1024 .f32 := V m c main_v11

abbrev blk0 (c : Dev nD) (t : Fin cfg0.N) : FVec Ideal S1x512x1024 .f32 := iblk m c 0 t
abbrev blk1 (c : Dev nD) (t : Fin cfg0.N) : FVec Ideal S1x512x1024 .f32 := iblk m c 1 t
abbrev blk2 (c : Dev nD) (t : Fin cfg0.N) : FVec Ideal S1x1x512 .f32 := iblk m c 2 t
abbrev blk3 (c : Dev nD) (t : Fin cfg0.N) : FVec Ideal S1x512x1024 .f32 := iblk m c 3 t
abbrev blk4 (c : Dev nD) (t : Fin cfg0.N) : FVec Ideal S1x1x512 .f32 := iblk m c 4 t
abbrev blk5 (c : Dev nD) (t : Fin cfg0.N) : FVec Ideal S1x1024x512 .f32 := iblk m c 5 t
abbrev blk6 (c : Dev nD) (t : Fin cfg0.N) : FVec Ideal S1x1x1024 .f32 := iblk m c 6 t

/-- A [128, 1, 512] bias array read as [128, 512] through its unit axis. -/
def flat512 (b : FVec Ideal S128x1x512 .f32) : FVec Ideal UpBias .f32 := fun i => b (ix3 (i 0) 0 (i 1))
/-- A [128, 1, 1024] bias array read as [128, 1024] through its unit axis. -/
def flat1024 (b : FVec Ideal S128x1x1024 .f32) : FVec Ideal DownBias .f32 := fun i => b (ix3 (i 0) 0 (i 1))

/-- What the output array ends holding: the feed-forward function of the arrays as the region finds them. -/
def kernelOut (c : Dev nD) : FVec Ideal S128x512x1024 .f32 :=
  ffn (toks m c) (w1a m c) (flat512 (b1a m c)) (w3a m c) (flat512 (b3a m c)) (w2a m c) (flat1024 (b2a m c))

/-- The grid point as an expert number. -/
def expert (t : Fin cfg0.N) : Fin 128 := t.cast N_0

/-! ## The index maps, decided once over the grid -/

theorem hz3 : (![0, 0, 0] : Fin 3 → Nat) = fun _ => 0 := funext fun a => by fin_cases a <;> rfl

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-! ## A loaded block's entry is its array's entry in the point's slab -/

theorem blk0_at (c : Dev nD) (t : Fin cfg0.N) (z : Fin 1) (a : Fin 512) (k : Fin 1024) :
    blk0 m c t (ix3 z a k) = toks m c (ix3 (expert t) a k) := by
  obtain ⟨⟨e0, e1, e2⟩, -⟩ := idx_facts t
  show V m c main_v8 (((cfg0.win 0).blk t).view.emb (ix3 z a k)) = V m c main_v8 (ix3 (expert t) a k)
  refine congrArg _ (funext fun x => Fin.ext ?_)
  have hz : z.val < 1 := z.isLt
  match x with
  | ⟨0, _⟩ => show win0_0.index t (0 : Fin 3) * 1 + 1 * z.val = t.val; omega
  | ⟨1, _⟩ => show win0_0.index t (1 : Fin 3) * 512 + 1 * a.val = a.val; omega
  | ⟨2, _⟩ => show win0_0.index t (2 : Fin 3) * 1024 + 1 * k.val = k.val; omega

theorem blk1_at (c : Dev nD) (t : Fin cfg0.N) (z : Fin 1) (a : Fin 512) (k : Fin 1024) :
    blk1 m c t (ix3 z a k) = w1a m c (ix3 (expert t) a k) := by
  obtain ⟨-, ⟨e0, e1, e2⟩, -⟩ := idx_facts t
  show V m c main_arg2 (((cfg0.win 1).blk t).view.emb (ix3 z a k)) = V m c main_arg2 (ix3 (expert t) a k)
  refine congrArg _ (funext fun x => Fin.ext ?_)
  have hz : z.val < 1 := z.isLt
  match x with
  | ⟨0, _⟩ => show win0_1.index t (0 : Fin 3) * 1 + 1 * z.val = t.val; omega
  | ⟨1, _⟩ => show win0_1.index t (1 : Fin 3) * 512 + 1 * a.val = a.val; omega
  | ⟨2, _⟩ => show win0_1.index t (2 : Fin 3) * 1024 + 1 * k.val = k.val; omega

theorem blk2_at (c : Dev nD) (t : Fin cfg0.N) (z z' : Fin 1) (f : Fin 512) :
    blk2 m c t (ix3 z z' f) = b1a m c (ix3 (expert t) 0 f) := by
  obtain ⟨-, -, ⟨e0, e1, e2⟩, -⟩ := idx_facts t
  show V m c main_v9 (((cfg0.win 2).blk t).view.emb (ix3 z z' f)) = V m c main_v9 (ix3 (expert t) 0 f)
  refine congrArg _ (funext fun x => Fin.ext ?_)
  have hz : z.val < 1 := z.isLt
  have hz' : z'.val < 1 := z'.isLt
  match x with
  | ⟨0, _⟩ => show win0_2.index t (0 : Fin 3) * 1 + 1 * z.val = t.val; omega
  | ⟨1, _⟩ => show win0_2.index t (1 : Fin 3) * 1 + 1 * z'.val = 0; omega
  | ⟨2, _⟩ => show win0_2.index t (2 : Fin 3) * 512 + 1 * f.val = f.val; omega

theorem blk3_at (c : Dev nD) (t : Fin cfg0.N) (z : Fin 1) (a : Fin 512) (k : Fin 1024) :
    blk3 m c t (ix3 z a k) = w3a m c (ix3 (expert t) a k) := by
  obtain ⟨-, -, -, ⟨e0, e1, e2⟩, -⟩ := idx_facts t
  show V m c main_arg6 (((cfg0.win 3).blk t).view.emb (ix3 z a k)) = V m c main_arg6 (ix3 (expert t) a k)
  refine congrArg _ (funext fun x => Fin.ext ?_)
  have hz : z.val < 1 := z.isLt
  match x with
  | ⟨0, _⟩ => show win0_3.index t (0 : Fin 3) * 1 + 1 * z.val = t.val; omega
  | ⟨1, _⟩ => show win0_3.index t (1 : Fin 3) * 512 + 1 * a.val = a.val; omega
  | ⟨2, _⟩ => show win0_3.index t (2 : Fin 3) * 1024 + 1 * k.val = k.val; omega

theorem blk4_at (c : Dev nD) (t : Fin cfg0.N) (z z' : Fin 1) (f : Fin 512) :
    blk4 m c t (ix3 z z' f) = b3a m c (ix3 (expert t) 0 f) := by
  obtain ⟨-, -, -, -, ⟨e0, e1, e2⟩, -⟩ := idx_facts t
  show V m c main_v10 (((cfg0.win 4).blk t).view.emb (ix3 z z' f)) = V m c main_v10 (ix3 (expert t) 0 f)
  refine congrArg _ (funext fun x => Fin.ext ?_)
  have hz : z.val < 1 := z.isLt
  have hz' : z'.val < 1 := z'.isLt
  match x with
  | ⟨0, _⟩ => show win0_4.index t (0 : Fin 3) * 1 + 1 * z.val = t.val; omega
  | ⟨1, _⟩ => show win0_4.index t (1 : Fin 3) * 1 + 1 * z'.val = 0; omega
  | ⟨2, _⟩ => show win0_4.index t (2 : Fin 3) * 512 + 1 * f.val = f.val; omega

theorem blk5_at (c : Dev nD) (t : Fin cfg0.N) (z : Fin 1) (a : Fin 1024) (f : Fin 512) :
    blk5 m c t (ix3 z a f) = w2a m c (ix3 (expert t) a f) := by
  obtain ⟨-, -, -, -, -, ⟨e0, e1, e2⟩, -⟩ := idx_facts t
  show V m c main_arg4 (((cfg0.win 5).blk t).view.emb (ix3 z a f)) = V m c main_arg4 (ix3 (expert t) a f)
  refine congrArg _ (funext fun x => Fin.ext ?_)
  have hz : z.val < 1 := z.isLt
  match x with
  | ⟨0, _⟩ => show win0_5.index t (0 : Fin 3) * 1 + 1 * z.val = t.val; omega
  | ⟨1, _⟩ => show win0_5.index t (1 : Fin 3) * 1024 + 1 * a.val = a.val; omega
  | ⟨2, _⟩ => show win0_5.index t (2 : Fin 3) * 512 + 1 * f.val = f.val; omega

theorem blk6_at (c : Dev nD) (t : Fin cfg0.N) (z z' : Fin 1) (a : Fin 1024) :
    blk6 m c t (ix3 z z' a) = b2a m c (ix3 (expert t) 0 a) := by
  obtain ⟨-, -, -, -, -, -, ⟨e0, e1, e2⟩, -⟩ := idx_facts t
  show V m c main_v11 (((cfg0.win 6).blk t).view.emb (ix3 z z' a)) = V m c main_v11 (ix3 (expert t) 0 a)
  refine congrArg _ (funext fun x => Fin.ext ?_)
  have hz : z.val < 1 := z.isLt
  have hz' : z'.val < 1 := z'.isLt
  match x with
  | ⟨0, _⟩ => show win0_6.index t (0 : Fin 3) * 1 + 1 * z.val = t.val; omega
  | ⟨1, _⟩ => show win0_6.index t (1 : Fin 3) * 1 + 1 * z'.val = 0; omega
  | ⟨2, _⟩ => show win0_6.index t (2 : Fin 3) * 1024 + 1 * a.val = a.val; omega

/-- Any whole output array read through point t's block: entry (z, a, k) of the block is the array's (t, a, k). -/
theorem out_read (G : FVec Ideal S128x512x1024 .f32) (t : Fin cfg0.N) (z : Fin 1) (a : Fin 512) (k : Fin 1024) :
    ((cfg0.win 7).blk t).view.read (Elt Ideal) G (ix3 z a k) = G (ix3 (expert t) a k) := by
  obtain ⟨-, -, -, -, -, -, -, ⟨e0, e1, e2⟩⟩ := idx_facts t
  show G (((cfg0.win 7).blk t).view.emb (ix3 z a k)) = G (ix3 (expert t) a k)
  refine congrArg _ (funext fun x => Fin.ext ?_)
  have hz : z.val < 1 := z.isLt
  match x with
  | ⟨0, _⟩ => show win0_7.index t (0 : Fin 3) * 1 + 1 * z.val = t.val; omega
  | ⟨1, _⟩ => show win0_7.index t (1 : Fin 3) * 512 + 1 * a.val = a.val; omega
  | ⟨2, _⟩ => show win0_7.index t (2 : Fin 3) * 1024 + 1 * k.val = k.val; omega

/-! ## The body's result on a point's blocks is the whole-array function in the point's slab -/

/-- The first up-projection over the point's blocks is the whole arrays' at the point's expert. -/
theorem proj1_blk (c : Dev nD) (t : Fin cfg0.N) (a f : Fin 512) :
    blockProj (blk0 m c t) (blk1 m c t) (blk2 m c t) a f = proj (toks m c) (w1a m c) (flat512 (b1a m c)) (expert t) a f := by
  unfold blockProj proj
  refine congrArg₂ (· + ·) (Finset.sum_congr rfl fun k _ => ?_) ?_
  · rw [blk0_at, blk1_at]
  · exact blk2_at m c t 0 0 f

/-- The gate up-projection over the point's blocks is the whole arrays' at the point's expert. -/
theorem proj3_blk (c : Dev nD) (t : Fin cfg0.N) (a f : Fin 512) :
    blockProj (blk0 m c t) (blk3 m c t) (blk4 m c t) a f = proj (toks m c) (w3a m c) (flat512 (b3a m c)) (expert t) a f := by
  unfold blockProj proj
  refine congrArg₂ (· + ·) (Finset.sum_congr rfl fun k _ => ?_) ?_
  · rw [blk0_at, blk3_at]
  · exact blk4_at m c t 0 0 f

/-- The stored entry over the point's blocks is the feed-forward function at (expert, token, channel). -/
theorem out_blk (c : Dev nD) (t : Fin cfg0.N) (a : Fin 512) (k : Fin 1024) :
    blockOut (blk0 m c t) (blk1 m c t) (blk2 m c t) (blk3 m c t) (blk4 m c t) (blk5 m c t) (blk6 m c t) a k
      = kernelOut m c (ix3 (expert t) a k) := by
  unfold blockOut kernelOut ffn gatedHidden
  refine congrArg₂ (· + ·) (Finset.sum_congr rfl fun f _ => ?_) ?_
  · rw [proj1_blk, proj3_blk, blk5_at]
  · exact blk6_at m c t 0 0 k

/-- WHAT POINT t WRITES BACK is block t of the feed-forward function of the arrays as the region finds them. -/
theorem flushed_eq (c : Dev nD) (t : Fin cfg0.N) :
    (dats m 0 c).flushed 7 t = ((cfg0.win 7).blk t).view.read (Elt Ideal) (kernelOut m c) := by
  show (cfg0.win 7).cut (grid0.coords t) ((dats m 0 c).after 7 t) = _
  rw [after0_7]
  unfold out0_7
  rw [View.canon_unit_zero hz3]
  simp only [View.ld_unit_zero (S := S1x512x1024) hz3, View.ld_unit_zero (S := S1x1x512) hz3,
    View.ld_unit_zero (S := S1x1024x512) hz3, View.ld_unit_zero (S := S1x1x1024) hz3]
  funext j
  obtain ⟨z, a, k, rfl⟩ : ∃ (z : Fin 1) (a : Fin 512) (k : Fin 1024), j = ix3 z a k := ⟨j 0, j 1, j 2, eq_ix3 j⟩
  refine (payload_at (blk0 m c t) (blk1 m c t) (blk3 m c t) (blk2 m c t) (blk4 m c t) (blk5 m c t) (blk6 m c t) z a k).trans ?_
  rw [out_read]
  exact out_blk m c t a k

/-! ## The 128 slabs tile the output array -/

/-- An index of the output array is in point t's block iff each coordinate is in the block's range on its axis. -/
theorem mem_blk (t : Fin cfg0.N) (i : S128x512x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v12).slice (win0_7.rect t)).set ↔ _
  rw [View.set_slice_whole, Rect.mem_set_unit]
  exact Iff.rfl

/-- Every index of the output array lies in the block of the point numbered by its expert coordinate. -/
theorem cover (i : S128x512x1024.Idx) :
    ∃ t : Fin cfg0.N, (cfg0.win 7).flush t = true ∧ i ∈ ((cfg0.win 7).blk t).view.set := by
  have h0 : (i 0).val < 128 := (i 0).isLt
  have h1 : (i 1).val < 512 := (i 1).isLt
  have h2 : (i 2).val < 1024 := (i 2).isLt
  refine ⟨(⟨(i 0).val, h0⟩ : Fin 128).cast N_0.symm, flush0_7 _, ?_⟩
  rw [mem_blk]
  obtain ⟨-, -, -, -, -, -, -, ⟨e0, e1, e2⟩⟩ := idx_facts ((⟨(i 0).val, h0⟩ : Fin 128).cast N_0.symm)
  have ev : (((⟨(i 0).val, h0⟩ : Fin 128).cast N_0.symm : Fin cfg0.N)).val = (i 0).val := rfl
  intro a
  match a with
  | ⟨0, _⟩ =>
    show win0_7.index _ (0 : Fin 3) * 1 ≤ (i 0).val ∧ (i 0).val < win0_7.index _ (0 : Fin 3) * 1 + 1
    rw [e0, ev]; omega
  | ⟨1, _⟩ =>
    show win0_7.index _ (1 : Fin 3) * 512 ≤ (i 1).val ∧ (i 1).val < win0_7.index _ (1 : Fin 3) * 512 + 512
    rw [e1]; omega
  | ⟨2, _⟩ =>
    show win0_7.index _ (2 : Fin 3) * 1024 ≤ (i 2).val ∧ (i 2).val < win0_7.index _ (2 : Fin 3) * 1024 + 1024
    rw [e2]; omega

/-- THE OUTPUT ARRAY after the region: the feed-forward function of the arrays as the region finds them. -/
theorem final (c : Dev nD) : (dats m 0 c).arrAt 7 cfg0.N = kernelOut m c :=
  (dats m 0 c).arrAt_eq_of_cover 7 (kernelOut m c) (fun t _ => flushed_eq m c t) cover

end Cert.KernelIdeal.FfnArray

end
-- ==== Proof.HostGlue.lean ====
/-
  The host code around the feed-forward network, as functions that are never opened.

  dispatch: the tokens [16, 4096, 1024] are flattened to 65536 rows, row idx[r] is taken for each r (a negative
  number wrapped once by 65536), and the rows are regrouped [128, 512, 1024]: 512 consecutive rows per expert.
  combine: the network's output is flattened back to 65536 rows, the rows are taken in the order that sorts idx
  (a stable sort of idx carrying the row numbers), and the result is reshaped [16, 4096, 1024].
  Both programs apply these same two functions around the same middle function, so the whole result is
  combine (ffn (dispatch x idx) …) idx on both sides and neither the gather nor the sort is ever evaluated.
-/
import proofs.«126496_j73126113181995_1_alg».proof.Proof.Gen.KernelIdeal
import proofs.«126496_j73126113181995_1_alg».proof.Proof.ExpertFfn
import Idealize.ShloMosaic.PureOps.Ideal

noncomputable section

namespace Cert.KernelIdeal.HostGlue

open Cert.KernelIdeal Cert.KernelIdeal.Gen Cert.ExpertFfn Idealize.ShloMosaic

/-- A row number below zero is wrapped once by the row count 65536; any other is kept. -/
def wrapRow (v : IVec S65536 32) : IVec S65536 32 :=
  select (cmpi .slt v (broadcastInDim S65536 ![] bcast_S_S65536 (constantI S_ 32 0#32)))
    (addi v (broadcastInDim S65536 ![] bcast_S_S65536 (constantI S_ 32 65536#32))) v

/-- Row r of the result is row v[r] (wrapped) of x. -/
def takeRows (x : FVec Ideal S65536x1024 .f32) (v : IVec S65536 32) : FVec Ideal S65536x1024 .f32 :=
  Host.gather gather_S65536x1024_S65536x1_S65536x1024_1_0_n_n_0_1_11024 x
    (broadcastInDim S65536x1 ![0] bcast_S65536_S65536x1_0 (wrapRow v))

/-- The row numbers 0 … 65535 carried along a stable ascending sort of idx. -/
def sortOrder (idx : IVec S65536 32) : IVec S65536 32 :=
  (Host.sort2 S65536 0 comparator_i32_i32_d0 idx (iotaInDim S65536 32 0)).2

/-- The tokens grouped by expert. -/
def dispatch (x : FVec Ideal S16x4096x1024 .f32) (idx : IVec S65536 32) : FVec Ideal S128x512x1024 .f32 :=
  shapeCast S128x512x1024 (takeRows (shapeCast S65536x1024 x shapeCasts_S16x4096x1024_S65536x1024) idx)
    shapeCasts_S65536x1024_S128x512x1024

/-- The network's rows put back in token order. -/
def combine (y : FVec Ideal S128x512x1024 .f32) (idx : IVec S65536 32) : FVec Ideal S16x4096x1024 .f32 :=
  shapeCast S16x4096x1024 (takeRows (shapeCast S65536x1024 y shapeCasts_S128x512x1024_S65536x1024) (sortOrder idx))
    shapeCasts_S65536x1024_S16x4096x1024

/-- THE WHOLE RESULT as one function of the eight arguments, in @main's argument order
    (tokens, idx, w₁, b₁, w₂, b₂, w₃, b₃). -/
def moe (x : FVec Ideal S16x4096x1024 .f32) (idx : IVec S65536 32) (w1 : FVec Ideal S128x512x1024 .f32)
    (b1 : FVec Ideal S128x512 .f32) (w2 : FVec Ideal S128x1024x512 .f32) (b2 : FVec Ideal S128x1024 .f32)
    (w3 : FVec Ideal S128x512x1024 .f32) (b3 : FVec Ideal S128x512 .f32) : FVec Ideal S16x4096x1024 .f32 :=
  combine (ffn (dispatch x idx) w1 b1 w3 b3 w2 b2) idx

end Cert.KernelIdeal.HostGlue

end
-- ==== Proof.KernelValue.lean ====
/-
  The idealized kernel's run, read back: its result buffer ends at combine (ffn (dispatch x idx) …) idx of the
  launch contents, and its arguments end unchanged.

  The region finds the gathered tokens (the host's dispatch of the arguments), the three weight arrays as launched, and
  the three bias arrays reshaped [128, 1, N], which read back as the arguments [128, N]. The output array after the region
  is the feed-forward function of those (the blocks-to-array fact); the host lines after the region are combine of it.
-/
import proofs.«126496_j73126113181995_1_alg».proof.Proof.FfnArray
import proofs.«126496_j73126113181995_1_alg».proof.Proof.HostGlue
import Idealize.ShloMosaic.Lib.StableHlo.Run

set_option maxRecDepth 16384

noncomputable section

namespace Cert.KernelIdeal.KernelValue

open Cert.KernelIdeal Cert.KernelIdeal.Gen Cert.KernelIdeal.FfnArray Cert.KernelIdeal.HostGlue Cert.ExpertFfn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the region finds -/

/-- The gathered tokens are the host's dispatch of the token and index arguments. -/
theorem toks_eq (c : Dev nD) :
    toks m c = dispatch (m ((c : Thread nD τ).loc main_arg0)) (m ((c : Thread nD τ).loc main_arg1)) := by
  show V m c main_v8 = _
  dsimp only [Gen.V, Gen.V0]
  simp only [hostOps0, List.flatten_cons, List.flatten_nil, List.append_nil, List.cons_append, List.nil_append]
  after_results
  rfl

/-- The first bias array the region finds is the argument reshaped [128, 1, 512]. -/
theorem b1a_eq (c : Dev nD) :
    b1a m c = shapeCast S128x1x512 (m ((c : Thread nD τ).loc main_arg3)) shapeCasts_S128x512_S128x1x512 := by
  show V m c main_v9 = _
  dsimp only [Gen.V, Gen.V0]
  simp only [hostOps0, List.flatten_cons, List.flatten_nil, List.append_nil, List.cons_append, List.nil_append]
  after_results
  rfl

/-- The gate bias array the region finds is the argument reshaped [128, 1, 512]. -/
theorem b3a_eq (c : Dev nD) :
    b3a m c = shapeCast S128x1x512 (m ((c : Thread nD τ).loc main_arg7)) shapeCasts_S128x512_S128x1x512 := by
  show V m c main_v10 = _
  dsimp only [Gen.V, Gen.V0]
  simp only [hostOps0, List.flatten_cons, List.flatten_nil, List.append_nil, List.cons_append, List.nil_append]
  after_results
  rfl

/-- The down-projection bias array the region finds is the argument reshaped [128, 1, 1024]. -/
theorem b2a_eq (c : Dev nD) :
    b2a m c = shapeCast S128x1x1024 (m ((c : Thread nD τ).loc main_arg5)) shapeCasts_S128x1024_S128x1x1024 := by
  show V m c main_v11 = _
  dsimp only [Gen.V, Gen.V0]
  simp only [hostOps0, List.flatten_cons, List.flatten_nil, List.append_nil, List.cons_append, List.nil_append]
  after_results
  rfl

/-- A [128, 512] array reshaped [128, 1, 512] and read through the unit axis is itself. -/
theorem flat512_reshape (b : FVec Ideal S128x512 .f32) (h : S128x512.ShapeCasts S128x1x512) :
    flat512 (shapeCast S128x1x512 b h) = b := by
  funext i
  unfold flat512
  refine (shapeCast_apply b h (ix3 (i 0) 0 (i 1)) i ?_).trans rfl
  rewrite [Shape.rowMajor_val_three, Shape.rowMajor_val_two]
  show (i 0).val * 512 + (i 1).val = ((i 0).val * 1 + 0) * 512 + (i 1).val
  omega

/-- A [128, 1024] array reshaped [128, 1, 1024] and read through the unit axis is itself. -/
theorem flat1024_reshape (b : FVec Ideal S128x1024 .f32) (h : S128x1024.ShapeCasts S128x1x1024) :
    flat1024 (shapeCast S128x1x1024 b h) = b := by
  funext i
  unfold flat1024
  refine (shapeCast_apply b h (ix3 (i 0) 0 (i 1)) i ?_).trans rfl
  rewrite [Shape.rowMajor_val_three, Shape.rowMajor_val_two]
  show (i 0).val * 1024 + (i 1).val = ((i 0).val * 1 + 0) * 1024 + (i 1).val
  omega

/-- The output array after the region, over the launch contents. -/
theorem out_eq (c : Dev nD) :
    (dats m 0 c).arrAt 7 cfg0.N
      = ffn (dispatch (m ((c : Thread nD τ).loc main_arg0)) (m ((c : Thread nD τ).loc main_arg1)))
          (m ((c : Thread nD τ).loc main_arg2)) (m ((c : Thread nD τ).loc main_arg3))
          (m ((c : Thread nD τ).loc main_arg6)) (m ((c : Thread nD τ).loc main_arg7))
          (m ((c : Thread nD τ).loc main_arg4)) (m ((c : Thread nD τ).loc main_arg5)) := by
  rw [final m c]
  unfold kernelOut
  rw [toks_eq, b1a_eq, b3a_eq, b2a_eq, flat512_reshape, flat512_reshape, flat1024_reshape]
  rw [show w1a m c = m ((c : Thread nD τ).loc main_arg2) from V_main_arg2 m c,
    show w3a m c = m ((c : Thread nD τ).loc main_arg6) from V_main_arg6 m c,
    show w2a m c = m ((c : Thread nD τ).loc main_arg4) from V_main_arg4 m c]

/-! ## The host lines after the region -/

/-- Over ANY buffer contents W, the lines after the region leave the result buffer at combine of the output array's and
    the index argument's contents. -/
theorem tail_read (W : Valuation τ sig (Elt Ideal)) :
    StableHlo.after (List.flatten [hostOps1, hostOps1_1, hostOps1_2]) W (Proc.devRef .tc main_v22)
      = combine (W (Proc.devRef .tc main_v12)) (W (Proc.devRef .tc main_arg1)) := by
  simp only [hostOps1, hostOps1_1, hostOps1_2, List.flatten_cons, List.flatten_nil, List.append_nil, List.cons_append, List.nil_append]
  after_results
  rfl

/-- The result buffer after the whole program. -/
theorem tail_eq (c : Dev nD) :
    Pipeline.afterTail₀ cfgs (dats m) 0 (V0 m) [hostOps1, hostOps1_1, hostOps1_2] c main_v22
      = combine ((dats m 0 c).arrAt 7 cfg0.N) (m ((c : Thread nD τ).loc main_arg1)) := by
  have hout : Pipeline.withArrays spec0 c (V0 m c) (fun w => (dats m 0 c).arrAt w cfg0.N) (Proc.devRef .tc main_v12)
      = (dats m 0 c).arrAt 7 cfg0.N := Pipeline.withArrays_arr spec0 launch0.win.arr_inj c _ _ 7
  have hidx : Pipeline.withArrays spec0 c (V0 m c) (fun w => (dats m 0 c).arrAt w cfg0.N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  exact (tail_read _).trans (congrArg₂ combine hout hidx)

/-! ## The run -/

/-- Every weakly fair execution of the idealized kernel program terminates with its result at moe of the launch
    contents and its arguments unchanged. -/
theorem run : θ_run defs (onTc (τ := τ) (main (F := Ideal))) ⟨m, fun _ => 0, ρ⟩ (fun r => ∀ c : Dev nD,
      r.2.mem ((c.tc : Thread nD τ).loc main_v22)
        = moe (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v22 (Pipeline.mem_restRefs_of main_v22 (by decide) (by decide))).trans
        ((tail_eq m c).trans (by rw [out_eq m c]; rfl)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c))⟩)
    (run_main m ρ)

end Cert.KernelIdeal.KernelValue

end
-- ==== Proof.ReferenceFfn.lean ====
/-
  The reference's middle stretch — two batched up-projections with their biases, the logistic gate spelt as
  negate / exponential / add one / divide, the product, the batched down-projection with its bias — is the
  per-expert feed-forward function of the gathered tokens and the six parameter arrays, index by index.
  Each batched contraction reads as a plain sum over the contracted channel; the bias broadcasts read as the
  bias at (expert, feature); and `1 / (1 + e^(-p))` is the logistic function on the extended reals by definition.
-/
import proofs.«126496_j73126113181995_1_alg».proof.Proof.Gen.ReferenceIdeal.Read
import proofs.«126496_j73126113181995_1_alg».proof.Proof.ExpertFfn
import Idealize.ShloMosaic.Lib.IdealHost

noncomputable section

namespace Cert.ReferenceIdeal.RefFfn

open Cert.ReferenceIdeal Cert.ReferenceIdeal.Read Cert.ExpertFfn
open Idealize.ShloMosaic Idealize.ShloMosaic.ValueIdx
open scoped BigOperators

variable (x0 : (⟨S16x4096x1024, .f32⟩ : BufTy).Contents (Elt Ideal)) (x1 : (⟨S65536, .i32⟩ : BufTy).Contents (Elt Ideal))
  (x2 : (⟨S128x512x1024, .f32⟩ : BufTy).Contents (Elt Ideal)) (x3 : (⟨S128x512, .f32⟩ : BufTy).Contents (Elt Ideal))
  (x4 : (⟨S128x1024x512, .f32⟩ : BufTy).Contents (Elt Ideal)) (x5 : (⟨S128x1024, .f32⟩ : BufTy).Contents (Elt Ideal))
  (x6 : (⟨S128x512x1024, .f32⟩ : BufTy).Contents (Elt Ideal)) (x7 : (⟨S128x512, .f32⟩ : BufTy).Contents (Elt Ideal))

/-- The first up-projection with its bias, at (expert, token, feature). -/
theorem up1_eq (i : S128x512x512.Idx) :
    val_main_v12 (F := Ideal) x0 x1 x2 x3 i = proj (val_main_v8 (F := Ideal) x0 x1) x2 x3 (i 0) (i 1) (i 2) := by
  rw [val_main_v12_apply, val_main_v9_apply, val_main_v11_apply, val_main_v10_apply]
  unfold proj
  have hl : ∀ k : Fin 1024, lidx_main_v9 i k = ix3 (i 0) (i 1) k := fun k => funext fun a => by
    match a with | ⟨0, _⟩ => rfl | ⟨1, _⟩ => rfl | ⟨2, _⟩ => rfl
  have hr : ∀ k : Fin 1024, ridx_main_v9 i k = ix3 (i 0) (i 2) k := fun k => funext fun a => by
    match a with | ⟨0, _⟩ => rfl | ⟨1, _⟩ => rfl | ⟨2, _⟩ => rfl
  have hb : idx_main_v10 (idx_main_v11 i) = ix2 (i 0) (i 2) := funext fun a => by
    match a with | ⟨0, _⟩ => rfl | ⟨1, _⟩ => rfl
  simp only [hl, hr, hb]
  rfl

/-- The second (gate) up-projection with its bias, at (expert, token, feature). -/
theorem up3_eq (i : S128x512x512.Idx) :
    val_main_v16 (F := Ideal) x0 x1 x6 x7 i = proj (val_main_v8 (F := Ideal) x0 x1) x6 x7 (i 0) (i 1) (i 2) := by
  rw [val_main_v16_apply, val_main_v13_apply, val_main_v15_apply, val_main_v14_apply]
  unfold proj
  have hl : ∀ k : Fin 1024, lidx_main_v13 i k = ix3 (i 0) (i 1) k := fun k => funext fun a => by
    match a with | ⟨0, _⟩ => rfl | ⟨1, _⟩ => rfl | ⟨2, _⟩ => rfl
  have hr : ∀ k : Fin 1024, ridx_main_v13 i k = ix3 (i 0) (i 2) k := fun k => funext fun a => by
    match a with | ⟨0, _⟩ => rfl | ⟨1, _⟩ => rfl | ⟨2, _⟩ => rfl
  have hb : idx_main_v14 (idx_main_v15 i) = ix2 (i 0) (i 2) := funext fun a => by
    match a with | ⟨0, _⟩ => rfl | ⟨1, _⟩ => rfl
  simp only [hl, hr, hb]
  rfl

/-- The gated hidden entry: `p · (1 / (1 + e^(-p)))` is `p · σ(p)`, times the gate-projection. -/
theorem gated_eq (i : S128x512x512.Idx) :
    val_main_v18 (F := Ideal) x0 x1 x2 x3 x6 x7 i = gatedHidden (val_main_v8 (F := Ideal) x0 x1) x2 x3 x6 x7 (i 0) (i 1) (i 2) := by
  rw [val_main_v18_apply, val_main_v17_apply, val_main_call0_v5_apply, val_main_call0_v4_apply, val_main_call0_cst_0_apply,
    val_main_call0_v3_apply, val_main_call0_v2_apply, val_main_call0_cst_apply, val_main_call0_v1_apply,
    val_main_call0_v0_apply, up1_eq, up3_eq]
  unfold gatedHidden
  simp only [Ideal.ofBits_def, Ideal.ofBits_one_f32]
  rfl

/-- The same at explicit coordinates. -/
theorem gated_at (e : Fin 128) (t f : Fin 512) :
    val_main_v18 (F := Ideal) x0 x1 x2 x3 x6 x7 (ix3 e t f) = gatedHidden (val_main_v8 (F := Ideal) x0 x1) x2 x3 x6 x7 e t f :=
  gated_eq x0 x1 x2 x3 x6 x7 (ix3 e t f)

/-- THE MIDDLE STRETCH is the feed-forward function of the gathered tokens and the parameters. -/
theorem ffn_eq :
    val_main_v22 (F := Ideal) x0 x1 x2 x3 x4 x5 x6 x7 = ffn (val_main_v8 (F := Ideal) x0 x1) x2 x3 x6 x7 x4 x5 := by
  funext i
  rw [val_main_v22_apply, val_main_v19_apply, val_main_v21_apply, val_main_v20_apply]
  unfold ffn
  have hl : ∀ k : Fin 512, lidx_main_v19 i k = ix3 (i 0) (i 1) k := fun k => funext fun a => by
    match a with | ⟨0, _⟩ => rfl | ⟨1, _⟩ => rfl | ⟨2, _⟩ => rfl
  have hr : ∀ k : Fin 512, ridx_main_v19 i k = ix3 (i 0) (i 2) k := fun k => funext fun a => by
    match a with | ⟨0, _⟩ => rfl | ⟨1, _⟩ => rfl | ⟨2, _⟩ => rfl
  have hb : idx_main_v20 (idx_main_v21 i) = ix2 (i 0) (i 2) := funext fun a => by
    match a with | ⟨0, _⟩ => rfl | ⟨1, _⟩ => rfl
  simp only [hl, hr, hb]
  refine congrArg (· + x5 (ix2 (i 0) (i 2))) (Finset.sum_congr rfl fun f _ => ?_)
  exact congrArg (· * x4 (ix3 (i 0) (i 2) f)) (gated_at x0 x1 x2 x3 x6 x7 (i 0) (i 1) f)

end Cert.ReferenceIdeal.RefFfn

end
-- ==== Proof.RefValue.lean ====
/-
  The reference's result is the same one function of the eight arguments: its host lines before the middle stretch are
  dispatch, its middle stretch is the feed-forward function of the dispatched tokens (the reference-side fact), and its
  host lines after are combine — the very operations the kernel program has around its region, so these two equations
  hold by unfolding the stages and never open the gather or the sort.
-/
import proofs.«126496_j73126113181995_1_alg».proof.Proof.ReferenceFfn
import proofs.«126496_j73126113181995_1_alg».proof.Proof.HostGlue

noncomputable section

namespace Cert.ReferenceIdeal.RefValue

open Cert.ReferenceIdeal Cert.ReferenceIdeal.Read Cert.ReferenceIdeal.RefFfn Cert.ExpertFfn
open Idealize.ShloMosaic

variable (x0 : (⟨S16x4096x1024, .f32⟩ : BufTy).Contents (Elt Ideal)) (x1 : (⟨S65536, .i32⟩ : BufTy).Contents (Elt Ideal))
  (x2 : (⟨S128x512x1024, .f32⟩ : BufTy).Contents (Elt Ideal)) (x3 : (⟨S128x512, .f32⟩ : BufTy).Contents (Elt Ideal))
  (x4 : (⟨S128x1024x512, .f32⟩ : BufTy).Contents (Elt Ideal)) (x5 : (⟨S128x1024, .f32⟩ : BufTy).Contents (Elt Ideal))
  (x6 : (⟨S128x512x1024, .f32⟩ : BufTy).Contents (Elt Ideal)) (x7 : (⟨S128x512, .f32⟩ : BufTy).Contents (Elt Ideal))

/-- The reference's tokens grouped by expert are the dispatch of its token and index arguments. -/
theorem dispatch_eq : val_main_v8 (F := Ideal) x0 x1 = Cert.KernelIdeal.HostGlue.dispatch x0 x1 := rfl

/-- The reference's result is combine of its middle stretch. -/
theorem combine_eq :
    val_main_v32 (F := Ideal) x0 x1 x2 x3 x4 x5 x6 x7
      = Cert.KernelIdeal.HostGlue.combine (val_main_v22 (F := Ideal) x0 x1 x2 x3 x4 x5 x6 x7) x1 := rfl

/-- THE REFERENCE'S RESULT is moe of its arguments. -/
theorem result_eq :
    val_main_v32 (F := Ideal) x0 x1 x2 x3 x4 x5 x6 x7 = Cert.KernelIdeal.HostGlue.moe x0 x1 x2 x3 x4 x5 x6 x7 := by
  rw [combine_eq, ffn_eq, dispatch_eq]
  rfl

end Cert.ReferenceIdeal.RefValue

end
-- ==== Proof.lean ====
/-
  A mixture-of-experts feed-forward layer: 65536 tokens are gathered into 128 groups of 512 (one group per expert),
  each group goes through its expert's gated feed-forward network
      y = ((x·W₁ᵀ + b₁) · σ(x·W₁ᵀ + b₁) · (x·W₃ᵀ + b₃)) · W₂ᵀ + b₂        (σ the logistic function),
  and the rows are gathered back into token order. The kernel program computes the network in one region gridded over
  the experts, each grid point holding one expert's blocks; the reference computes it with three batched contractions
  and spells the logistic function as 1 / (1 + e^(-x)). The gathers and the argsort around the network are the same host
  operations in both programs.

  On the extended reals both results are ONE function of the eight arguments, combine (ffn (dispatch x idx) …) idx:
    * the kernel's output array after its 128 grid points is ffn of the arrays the region finds (block by block the
      stored payload is ffn in the point's slab, and the slabs tile the array), the arrays the region finds are
      dispatch of the arguments and the parameters themselves, and the lines after the region are combine;
    * the reference's stages read the same: its contractions are the same sums over the contracted axis, its biases
      the same entries, and 1 / (1 + e^(-p)) is the logistic function by definition.
  No law of the extended reals is used beyond re-indexing finite sums, so the precondition is never opened.
  The three frames are the generated frame runs; the idealization rewrote nothing.
-/
import proofs.«126496_j73126113181995_1_alg».proof.Defs
import proofs.«126496_j73126113181995_1_alg».proof.Proof.Gen.Kernel
import proofs.«126496_j73126113181995_1_alg».proof.Proof.Gen.Kernel.Skeleton
import proofs.«126496_j73126113181995_1_alg».proof.Proof.Gen.Kernel.Launch
import proofs.«126496_j73126113181995_1_alg».proof.Proof.Gen.Kernel.Points
import proofs.«126496_j73126113181995_1_alg».proof.Proof.Gen.Kernel.Frame
import proofs.«126496_j73126113181995_1_alg».proof.Proof.Gen.KernelIdeal
import proofs.«126496_j73126113181995_1_alg».proof.Proof.Gen.KernelIdeal.Skeleton
import proofs.«126496_j73126113181995_1_alg».proof.Proof.Gen.KernelIdeal.Launch
import proofs.«126496_j73126113181995_1_alg».proof.Proof.Gen.KernelIdeal.Points
import proofs.«126496_j73126113181995_1_alg».proof.Proof.Gen.KernelIdeal.Frame
import proofs.«126496_j73126113181995_1_alg».proof.Proof.Gen.ReferenceIdeal
import proofs.«126496_j73126113181995_1_alg».proof.Proof.Gen.Pre_finite_inputs
import proofs.«126496_j73126113181995_1_alg».proof.Proof.Gen.ReferenceIdeal.Run
import proofs.«126496_j73126113181995_1_alg».proof.Proof.Gen.ReferenceIdeal.Read
import proofs.«126496_j73126113181995_1_alg».proof.Proof.KernelValue
import proofs.«126496_j73126113181995_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end at the one function of the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v32_eq (F := Ideal) _ _ _ _ _ _ _ _).trans
    (Cert.ReferenceIdeal.RefValue.result_eq _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
